-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x128 : Shape := ⟨2, ![8192, 128]⟩
abbrev S4096x512 : Shape := ⟨2, ![4096, 512]⟩
abbrev S_ : Shape := ⟨0, ![]⟩
abbrev S1x128 : Shape := ⟨2, ![1, 128]⟩
abbrev S128 : Shape := ⟨1, ![128]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  slices_S8192x128_S1x128_0_0 : S8192x128.Slices ![0, 0] S1x128
  shapeCasts_S1x128_S128 : S1x128.ShapeCasts S128
  bcast_S_S128 : S_.BroadcastsInDim S128 (![] : Fin 0 → Fin S128.rank)
  reducesTo_S128_S_d0 : S128.ReducesTo [0] S_

variable [Facts]

def fn_part1 {F : FTy → Type} [FloatOps F] (main_arg2 : IVec S8192x128 32) (main_v13 : IVec S_ 1) (main_v15 : IVec S128 32) (main_v16 : IVec S128 32) : IVec S_ 1 :=
  let main_v17 : IVec S128 1 := cmpi .sge main_v15 main_v16
  let main_v18 : IVec S1x128 32 := (extractStridedSlice S1x128 ![0, 0] · slices_S8192x128_S1x128_0_0) main_arg2
  let main_v19 : IVec S128 32 := shapeCast S128 main_v18 shapeCasts_S1x128_S128
  let main_c_5 : IVec S_ 32 := constantI S_ 32 512#32
  let main_v20 : IVec S128 32 := broadcastInDim S128 ![] bcast_S_S128 main_c_5
  let main_v21 : IVec S128 1 := cmpi .slt main_v19 main_v20
  let main_v22 : IVec S128 1 := andi main_v17 main_v21
  let main_c_6 : IVec S_ 1 := constantI S_ 1 1#1
  let main_v23 : IVec S_ 1 := (fun x v => Host.reduce IntOp.andi x v reducesTo_S128_S_d0 h_S_) main_v22 main_c_6
  let main_v24 : IVec S_ 1 := andi main_v13 main_v23
  main_v24

def fn {F : FTy → Type} [FloatOps F] (main_arg0 : FVec F S8192x4096 .f32) (main_arg1 : FVec F S8192x4096 .f32) (main_arg2 : IVec S8192x128 32) (main_arg3 : FVec F S4096x512 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : IVec S1x128 32 := (extractStridedSlice S1x128 ![0, 0] · slices_S8192x128_S1x128_0_0) main_arg2
  let main_v15 : IVec S128 32 := shapeCast S128 main_v14 shapeCasts_S1x128_S128
  let main_c_4 : IVec S_ 32 := constantI S_ 32 4294966784#32
  let main_v16 : IVec S128 32 := broadcastInDim S128 ![] bcast_S_S128 main_c_4
  fn_part1 (F := F) main_arg2 main_v13 main_v15 main_v16
-- ==== Kernel.lean ====
abbrev S8192x4096 : Shape := ⟨2, ![8192, 4096]⟩
abbrev S8192x128 : Shape := ⟨2, ![8192, 128]⟩
abbrev S4096x512 : Shape := ⟨2, ![4096, 512]⟩
abbrev S1x128 : Shape := ⟨2, ![1, 128]⟩
abbrev S128 : Shape := ⟨1, ![128]⟩
abbrev S_ : Shape := ⟨0, ![]⟩
abbrev S128x1 : Shape := ⟨2, ![128, 1]⟩
abbrev S1 : Shape := ⟨1, ![1]⟩
abbrev S1x1 : Shape := ⟨2, ![1, 1]⟩
abbrev S4096x128 : Shape := ⟨2, ![4096, 128]⟩
abbrev S128x4096 : Shape := ⟨2, ![128, 4096]⟩
abbrev S256x4096 : Shape := ⟨2, ![256, 4096]⟩
abbrev S256x128 : Shape := ⟨2, ![256, 128]⟩

abbrev nBuf : Space → Nat
  | .hbm => 32
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x128, .i32⟩
  | .hbm, ⟨3, _⟩ => ⟨S4096x512, .f32⟩
  | .hbm, ⟨4, _⟩ => ⟨S1x128, .i32⟩
  | .hbm, ⟨5, _⟩ => ⟨S128, .i32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S128x1, .i32⟩
  | .hbm, ⟨14, _⟩ => ⟨S1, .i32⟩
  | .hbm, ⟨15, _⟩ => ⟨S_, .i32⟩
  | .hbm, ⟨16, _⟩ => ⟨S128x1, .i32⟩
  | .hbm, ⟨17, _⟩ => ⟨S128x1, .i1⟩
  | .hbm, ⟨18, _⟩ => ⟨S1x1, .i32⟩
  | .hbm, ⟨19, _⟩ => ⟨S128x1, .i32⟩
  | .hbm, ⟨20, _⟩ => ⟨S128x1, .i1⟩
  | .hbm, ⟨21, _⟩ => ⟨S128x1, .i1⟩
  | .hbm, ⟨22, _⟩ => ⟨S_, .i1⟩
  | .hbm, ⟨23, _⟩ => ⟨S128, .i1⟩
  | .hbm, ⟨24, _⟩ => ⟨S4096x128, .f32⟩
  | .hbm, ⟨25, _⟩ => ⟨S4096x128, .i1⟩
  | .hbm, ⟨26, _⟩ => ⟨S_, .f32⟩
  | .hbm, ⟨27, _⟩ => ⟨S4096x128, .f32⟩
  | .hbm, ⟨28, _⟩ => ⟨S4096x128, .f32⟩
  | .hbm, ⟨29, _⟩ => ⟨S4096x128, .bf16⟩
  | .hbm, ⟨30, _⟩ => ⟨S128x4096, .bf16⟩
  | .hbm, ⟨31, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096x128, .bf16⟩
  | .local _ .vmem, ⟨5, _⟩ => ⟨S128x4096, .bf16⟩
  | .local _ .vmem, ⟨6, _⟩ => ⟨S256x4096, .f32⟩
  | .local _ .vmem, ⟨7, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_call0_c : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_c_0 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_c_1 : Ref sig .tc := ⟨.hbm, 14, rfl⟩
abbrev main_call0_call0_c_2 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_call0_c_3 : Ref sig .tc := ⟨.hbm, 22, rfl⟩
abbrev main_call0_call0_v12 : Ref sig .tc := ⟨.hbm, 23, rfl⟩
abbrev main_call0_call0_v13 : Ref sig .tc := ⟨.hbm, 24, rfl⟩
abbrev main_call0_call0_v14 : Ref sig .tc := ⟨.hbm, 25, rfl⟩
abbrev main_call0_call0_cst : Ref sig .tc := ⟨.hbm, 26, rfl⟩
abbrev main_call0_call0_v15 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v0 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S8192x128_S1x128_0_0 : S8192x128.Slices ![0, 0] S1x128
  shapeCasts_S1x128_S128 : S1x128.ShapeCasts S128
  bcast_S_S128 : S_.BroadcastsInDim S128 (![] : Fin 0 → Fin S128.rank)
  bcast_S128_S128x1_0 : S128.BroadcastsInDim S128x1 (![0] : Fin 1 → Fin S128x1.rank)
  bcast_S_S128x1 : S_.BroadcastsInDim S128x1 (![] : Fin 0 → Fin S128x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  reducesTo_S128x1_S128_d1 : S128x1.ReducesTo [1] S128
  h_S_ : 0 < S_.numel
  bcast_S128_S4096x128_1 : S128.BroadcastsInDim S4096x128 (![1] : Fin 1 → Fin S4096x128.rank)
  bcast_S_S4096x128 : S_.BroadcastsInDim S4096x128 (![] : Fin 0 → Fin S4096x128.rank)
  bitsLt_bf16_f32 : FTy.bits .bf16 < FTy.bits .f32
  transposes_S4096x128_S128x4096_1_0 : S4096x128.Transposes [1, 0] S128x4096
  inb_S256x4096_S256x4096_0_0 : ∀ a, (![0, 0] : Fin 2 → Nat) a + S256x4096.size a ≤ S256x4096.size a
  h_S256x4096 : 0 < S256x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  gather_S4096x512_S128x1_S4096x128_0_1_n_n_1_1_40961_wf : GatherDims.WF S4096x512 S128x1 S4096x128 [0] [1] [] [1] [] 1 ![4096, 1]
  dot_S256x4096_S4096x128_S256x128_1_0_0_1_n_n_wf : DotDims.WF S256x4096 S4096x128 S256x128 [1] [0] [0] [1] [] []
  dot_S256x128_S128x4096_S256x4096_1_0_0_1_n_n_wf : DotDims.WF S256x128 S128x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .bf16 = 32 ∨ (Rect.block (s := S4096x128) S4096x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S128x4096.size a
  hwx0_3 : ∀ i : grid0.Coords, EltTy.bits .bf16 = 32 ∨ (Rect.block (s := S128x4096) S128x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

def gather_S4096x512_S128x1_S4096x128_0_1_n_n_1_1_40961 : GatherDims S4096x512 S128x1 S4096x128 where
  offsetDims := [0]
  collapsedSliceDims := [1]
  operandBatchingDims := []
  startIndicesBatchingDims := []
  startIndexMap := [1]
  indexVectorDim := 1
  sliceSizes := ![4096, 1]
  wf := gather_S4096x512_S128x1_S4096x128_0_1_n_n_1_1_40961_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S4096x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S128x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where
  halias0_4 : Pipeline.Aliased win0 0 4

variable [Facts]
-- ==== ReferenceIdeal.lean ====
abbrev S8192x4096 : Shape := ⟨2, ![8192, 4096]⟩
abbrev S8192x128 : Shape := ⟨2, ![8192, 128]⟩
abbrev S4096x512 : Shape := ⟨2, ![4096, 512]⟩
abbrev S1x128 : Shape := ⟨2, ![1, 128]⟩
abbrev S128 : Shape := ⟨1, ![128]⟩
abbrev S8192x512 : Shape := ⟨2, ![8192, 512]⟩
abbrev S_ : Shape := ⟨0, ![]⟩
abbrev S128x1 : Shape := ⟨2, ![128, 1]⟩
abbrev S4096x128 : Shape := ⟨2, ![4096, 128]⟩
abbrev S128x4096 : Shape := ⟨2, ![128, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x128, .i32⟩
  | .hbm, ⟨3, _⟩ => ⟨S4096x512, .f32⟩
  | .hbm, ⟨4, _⟩ => ⟨S1x128, .i32⟩
  | .hbm, ⟨5, _⟩ => ⟨S128, .i32⟩
  | .hbm, ⟨6, _⟩ => ⟨S8192x4096, .f32⟩
  | .hbm, ⟨7, _⟩ => ⟨S8192x512, .f32⟩
  | .hbm, ⟨8, _⟩ => ⟨S_, .i32⟩
  | .hbm, ⟨9, _⟩ => ⟨S128, .i32⟩
  | .hbm, ⟨10, _⟩ => ⟨S128, .i1⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S128, .i32⟩
  | .hbm, ⟨15, _⟩ => ⟨S128x1, .i32⟩
  | .hbm, ⟨16, _⟩ => ⟨S8192x128, .f32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128x1, .i32⟩
  | .hbm, ⟨25, _⟩ => ⟨S4096x128, .f32⟩
  | .hbm, ⟨26, _⟩ => ⟨S128x4096, .f32⟩
  | .hbm, ⟨27, _⟩ => ⟨S8192x4096, .f32⟩
  | .hbm, ⟨28, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  slices_S8192x128_S1x128_0_0 : S8192x128.Slices ![0, 0] S1x128
  shapeCasts_S1x128_S128 : S1x128.ShapeCasts S128
  bcast_S_S128 : S_.BroadcastsInDim S128 (![] : Fin 0 → Fin S128.rank)
  bcast_S128_S128x1_0 : S128.BroadcastsInDim S128x1 (![0] : Fin 1 → Fin S128x1.rank)
  transposes_S4096x128_S128x4096_1_0 : S4096x128.Transposes [1, 0] S128x4096
  dot_S8192x4096_S4096x512_S8192x512_1_0_0_1_n_n_wf : DotDims.WF S8192x4096 S4096x512 S8192x512 [1] [0] [0] [1] [] []
  gather_S8192x512_S128x1_S8192x128_0_1_n_n_1_1_81921_wf : GatherDims.WF S8192x512 S128x1 S8192x128 [0] [1] [] [1] [] 1 ![8192, 1]
  gather_S4096x512_S128x1_S4096x128_0_1_n_n_1_1_40961_wf : GatherDims.WF S4096x512 S128x1 S4096x128 [0] [1] [] [1] [] 1 ![4096, 1]
  dot_S8192x128_S128x4096_S8192x4096_1_0_0_1_n_n_wf : DotDims.WF S8192x128 S128x4096 S8192x4096 [1] [0] [0] [1] [] []

variable [Facts₀]

def dot_S8192x4096_S4096x512_S8192x512_1_0_0_1_n_n : DotDims S8192x4096 S4096x512 S8192x512 where
  lhsContracting := [1]
  rhsContracting := [0]
  lhsNonContracting := [0]
  rhsNonContracting := [1]
  lhsBatch := []
  rhsBatch := []
  wf := dot_S8192x4096_S4096x512_S8192x512_1_0_0_1_n_n_wf
def gather_S8192x512_S128x1_S8192x128_0_1_n_n_1_1_81921 : GatherDims S8192x512 S128x1 S8192x128 where
  offsetDims := [0]
  collapsedSliceDims := [1]
  operandBatchingDims := []
  startIndicesBatchingDims := []
  startIndexMap := [1]
  indexVectorDim := 1
  sliceSizes := ![8192, 1]
  wf := gather_S8192x512_S128x1_S8192x128_0_1_n_n_1_1_81921_wf
def gather_S4096x512_S128x1_S4096x128_0_1_n_n_1_1_40961 : GatherDims S4096x512 S128x1 S4096x128 where
  offsetDims := [0]
  collapsedSliceDims := [1]
  operandBatchingDims := []
  startIndicesBatchingDims := []
  startIndexMap := [1]
  indexVectorDim := 1
  sliceSizes := ![4096, 1]
  wf := gather_S4096x512_S128x1_S4096x128_0_1_n_n_1_1_40961_wf
def dot_S8192x128_S128x4096_S8192x4096_1_0_0_1_n_n : DotDims S8192x128 S128x4096 S8192x4096 where
  lhsContracting := [1]
  rhsContracting := [0]
  lhsNonContracting := [0]
  rhsNonContracting := [1]
  lhsBatch := []
  rhsBatch := []
  wf := dot_S8192x128_S128x4096_S8192x4096_1_0_0_1_n_n_wf

class Facts : Prop extends Facts₀ where

variable [Facts]
-- ==== Proof.ColumnGather.lean ====
/-
  A COLUMN GATHER READ AT AN INDEX.

  `x[:, idx]` of a matrix `x : [N, 512]` at a vector of 128 integer indices lowers to a gather whose start indices are
  the vector as a `[128, 1]` array, with offset axis 0, collapsed axis 1, start index map `[1]` and slice sizes `[N, 1]`:
  a whole column per index. Result element `(r, k)` is the operand at row `r` and at the column the `k`-th start index
  names, read as a signed integer and clamped into `[0, 511]` so that the one-column slice fits. The row count `N` is
  a parameter: the same dimension numbers gather columns of a `[4096, 512]` and of an `[8192, 512]` matrix, and the
  column function `col` does not depend on it.
-/
import Idealize.ShloMosaic.Lib.ValueIdx

noncomputable section

namespace ColumnGather

open Idealize.ShloMosaic Idealize.ShloMosaic.ValueIdx

/-- The dimension numbers of a column gather of an `[N, 512]` operand at `[128, 1]` start indices. -/
abbrev colDims (N : Nat)
    (wf : GatherDims.WF ⟨2, ![N, 512]⟩ ⟨2, ![128, 1]⟩ ⟨2, ![N, 128]⟩ [0] [1] [] [1] [] 1 ![N, 1]) :
    GatherDims ⟨2, ![N, 512]⟩ ⟨2, ![128, 1]⟩ ⟨2, ![N, 128]⟩ where
  offsetDims := [0]
  collapsedSliceDims := [1]
  operandBatchingDims := []
  startIndicesBatchingDims := []
  startIndexMap := [1]
  indexVectorDim := 1
  sliceSizes := ![N, 1]
  wf := wf

/-- The column the `k`-th start index names: the word `idx[k, 0]` read signed and clamped into `[0, 511]`. -/
def col {w : Nat} (idx : IVec ⟨2, ![128, 1]⟩ w) (k : Fin 128) : Fin 512 :=
  ⟨min (idx (ix2 k (0 : Fin 1))).toInt.toNat 511, by omega⟩

variable {N w : Nat}
  (wf : GatherDims.WF ⟨2, ![N, 512]⟩ ⟨2, ![128, 1]⟩ ⟨2, ![N, 128]⟩ [0] [1] [] [1] [] 1 ![N, 1])

/-- On the row axis the operand index is the result's row: no start index is mapped to it, and it is the one
    offset axis. -/
theorem operandIdx_row (idx : IVec ⟨2, ![128, 1]⟩ w) (r : Fin N) (k : Fin 128) :
    ((colDims N wf).operandIdx (ix2 r k) idx (0 : Fin 2)).val = r.val := by
  show (colDims N wf).start (ix2 r k) idx 0 + (colDims N wf).batchCoord (ix2 r k) 0
    + (colDims N wf).offCoord (ix2 r k) 0 = _
  rw [GatherDims.batchCoord_eq_zero _ _ _ List.not_mem_nil]
  unfold GatherDims.start
  rw [dif_neg (show ¬ ((0 : Fin 2) ∈ ([1] : List (Fin 2))) by decide)]
  unfold GatherDims.offCoord
  rw [dif_pos ((GatherDims.mem_sKept (colDims N wf) (0 : Fin 2)).mpr
    ⟨(show ¬ ((0 : Fin 2) ∈ ([1] : List (Fin 2))) by decide), List.not_mem_nil⟩)]
  simp only [Nat.zero_add]
  -- the one offset axis of the result is axis 0, whichever position the list is read at
  exact congrArg (fun a : Fin 2 => ((ix2 r k : (⟨2, ![N, 128]⟩ : Shape).Idx) a).val) (List.getElem_singleton _)

/-- On the column axis the operand index is the clamped start index: the axis is collapsed, so no offset is added. -/
theorem operandIdx_col (idx : IVec ⟨2, ![128, 1]⟩ w) (r : Fin N) (k : Fin 128) :
    ((colDims N wf).operandIdx (ix2 r k) idx (1 : Fin 2)).val = (col idx k).val := by
  show (colDims N wf).start (ix2 r k) idx 1 + (colDims N wf).batchCoord (ix2 r k) 1
    + (colDims N wf).offCoord (ix2 r k) 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colDims N wf).startIndexMap from List.mem_singleton.mpr rfl)]
  have hsi : (colDims N wf).siIdx (ix2 r k) ⟨List.idxOf (1 : Fin 2) (colDims N wf).startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

/-- THE COLUMN GATHER READ AT `(r, k)`: the operand at row `r`, column `col idx k`. -/
theorem gather_col_apply {α : Type} (x : (⟨2, ![N, 512]⟩ : Shape).Idx → α) (idx : IVec ⟨2, ![128, 1]⟩ w)
    (r : Fin N) (k : Fin 128) :
    Host.gather (colDims N wf) x idx (ix2 r k) = x (ix2 r (col idx k)) := by
  unfold Host.gather
  congr 1
  funext a
  refine Fin.ext ?_
  match a with
  | ⟨0, _⟩ => exact operandIdx_row wf idx r k
  | ⟨1, _⟩ => exact operandIdx_col wf idx r k

end ColumnGather

end
-- ==== Proof.LibReduceAnd.lean ====
/-
  A REDUCE BY `and` OVER ONES IS ONE.

  The library reads `jnp.all` one way: a `stablehlo.reduce` of one-bit words by `and` that came out 1 met only 1s
  (`Host.reduce_andi_eq_one`, `Host.reduce_andi_all`). This is the converse, for a proof that has to EVALUATE such a
  mask: from the initial value 1, over an operand that is 1 at every index, the reduce is 1 at every result index,
  along whatever axes. A reduce is a left fold over the operand indices that drop to the result index
  (`Host.reduce_eq_foldl`), and a fold of `and` over 1s from 1 stays 1.
-/
import Idealize.ShloMosaic.Lib.ReduceAll

namespace Idealize.ShloMosaic

namespace IntOp

/-- A left fold by `and` over one-bit words from 1, all of them 1, is 1. -/
theorem foldl_andi_of_all {ι : Type} (f : ι → BitVec 1) :
    ∀ (l : List ι) (init : BitVec 1), init = 1#1 → (∀ n ∈ l, f n = 1#1) →
      l.foldl (fun r n => andi r (f n)) init = 1#1
  | [], _, h, _ => h
  | a :: l, _, h, hl =>
    foldl_andi_of_all f l _ (andi_eq_one.2 ⟨h, hl a List.mem_cons_self⟩)
      (fun n hn => hl n (List.mem_cons_of_mem _ hn))

end IntOp

namespace Host

variable {s t u : Shape} {axes : List (Fin s.rank)}

/-- A `stablehlo.reduce` by `and` from the initial value 1 over an operand that is 1 everywhere is 1 everywhere. -/
theorem reduce_andi_of_all (x : s.Idx → BitVec 1) (init : u.Idx → BitVec 1) (h : s.ReducesTo axes t) (hu : 0 < u.numel)
    (j : t.Idx) (hi : init (Shape.Idx.first hu) = 1#1) (hx : ∀ i, x i = 1#1) :
    Host.reduce IntOp.andi x init h hu j = 1#1 := by
  rw [Host.reduce_eq_foldl]
  exact IntOp.foldl_andi_of_all x _ _ hi (fun n _ => hx n)

end Host

end Idealize.ShloMosaic
-- ==== Proof.Weights.lean ====
/-
  WHAT THE REGION FINDS IN ITS TWO WEIGHT WINDOWS.

  Before the region, the host takes row 0 of the integer input as 128 index words, moves the negative ones up by 512
  (the numpy convention for an axis of extent 512), and gathers those columns of `W`; a column whose moved index is
  still outside `[0, 511]` is replaced by a fill value, the others are kept. The result `[4096, 128]` and its transpose
  `[128, 4096]` are the arrays windows 2 and 3 stage whole at every grid point.

  Under the precondition every index word lies in `[-512, 512)`: a negative word moved up by 512 and a non-negative
  word left alone both land in `[0, 511]`, so the in-range test is 1 for every column, the fill never shows, and
  entry `(j, k)` of the first array is `W[j, c k]` with `c k` the column the `k`-th start index names — entry
  `(k, d)` of the second is `W[d, c k]`. (At the ideal instance the narrowing to bf16 is the identity.)
-/
import proofs.«419594_j4509715660999_3_alg».proof.Defs
import proofs.«419594_j4509715660999_3_alg».proof.Proof.Gen.KernelIdeal.Frame
import proofs.«419594_j4509715660999_3_alg».proof.Proof.ColumnGather
import proofs.«419594_j4509715660999_3_alg».proof.Proof.LibReduceAnd
import Idealize.ShloMosaic.Lib.Pipeline.Value
import Idealize.ShloMosaic.Lib.StableHlo.Run

noncomputable section

namespace Cert.KernelIdeal.Weights

open Cert.KernelIdeal Cert.KernelIdeal.Gen Idealize.ShloMosaic Idealize.ShloMosaic.TcCoe Idealize.SL.Sem
open Idealize.ShloMosaic.StableHlo Idealize.ShloMosaic.ValueIdx ColumnGather

/-! ## Words: an index in `[-512, 512)`, negatives moved up by 512, lands in `[0, 511]` -/

theorem wrap_toInt (s : BitVec 32) (h1 : -512 ≤ s.toInt) (h2 : s.toInt < 512) :
    0 ≤ (Scalar.select (IntOp.cmpi .slt s 0#32) (IntOp.addi s 512#32) s).toInt
      ∧ (Scalar.select (IntOp.cmpi .slt s 0#32) (IntOp.addi s 512#32) s).toInt ≤ 511 := by
  have z : (0#32 : BitVec 32).toInt = 0 := by decide
  have e512 : (512#32 : BitVec 32).toInt = 512 := by decide
  by_cases hneg : IntOp.cmpi .slt s 0#32 = 1#1
  · have hs : s.toInt < 0 := by have := IntOp.cmpi_slt.1 hneg; rwa [z] at this
    rw [hneg, select_one]
    have e : (IntOp.addi s 512#32).toInt = s.toInt + 512 := by
      show (s + 512#32).toInt = _
      rw [BitVec.toInt_add, e512, Int.bmod_def]
      split <;> omega
    omega
  · have hs : ¬ s.toInt < 0 := fun h => hneg (IntOp.cmpi_slt.2 (by rwa [z]))
    rw [eq_zero_of_ne_one hneg, select_zero]
    omega

/-! ## The host's stages, as functions of the integer input and of `W` -/

section Stages
variable (x2 : IVec S8192x128 32) (x3 : FVec Ideal S4096x512 .f32)

/-- Row 0 of the integer input: the 128 index words. -/
def sel : IVec S128 32 :=
  shapeCast S128 (extractStridedSlice S1x128 ![0, 0] x2 Facts₀.slices_S8192x128_S1x128_0_0) Facts₀.shapeCasts_S1x128_S128

/-- The index words with the negative ones moved up by 512. -/
def wrapped : IVec S128 32 :=
  select (cmpi .slt (sel x2) (broadcastInDim S128 ![] Facts₀.bcast_S_S128 (constantI S_ 32 0#32)))
    (addi (sel x2) (broadcastInDim S128 ![] Facts₀.bcast_S_S128 (constantI S_ 32 512#32))) (sel x2)

/-- The gather's start indices: the moved words as a `[128, 1]` array. -/
def startIdx : IVec S128x1 32 := broadcastInDim S128x1 ![0] Facts₀.bcast_S128_S128x1_0 (wrapped x2)

/-- The in-range test of each start index: `0 ≤ · ≤ 511`, reduced over the unit axis. -/
def inRange : IVec S128 1 :=
  Host.reduce IntOp.andi
    (andi (cmpi .sge (startIdx x2) (broadcastInDim S128x1 ![] Facts₀.bcast_S_S128x1 (constantI S_ 32 0#32)))
      (cmpi .sle (startIdx x2) (broadcastInDim S128x1 ![0, 1] Facts₀.bcast_S1x1_S128x1_0_1
        (broadcastInDim S1x1 ![1] Facts₀.bcast_S1_S1x1_1 (constantI S1 32 511#32)))))
    (constantI S_ 1 1#1) Facts₀.reducesTo_S128x1_S128_d1 Facts₀.h_S_

/-- The selected columns of `W`, a column out of range replaced by the fill value. -/
def wsel : FVec Ideal S4096x128 .f32 :=
  select (broadcastInDim S4096x128 ![1] Facts₀.bcast_S128_S4096x128_1 (inRange x2))
    (Host.gather gather_S4096x512_S128x1_S4096x128_0_1_n_n_1_1_40961 x3 (startIdx x2))
    (broadcastInDim S4096x128 ![] Facts₀.bcast_S_S4096x128 (constant (F := Ideal) S_ .f32 0x7FC00000#32))

/-- A start index is the moved index word of its row. -/
theorem startIdx_apply (y : S128x1.Idx) :
    startIdx x2 y = Scalar.select (IntOp.cmpi .slt (sel x2 (ix1 ⟨(y 0).val, idx2_lt0 y⟩)) 0#32)
      (IntOp.addi (sel x2 (ix1 ⟨(y 0).val, idx2_lt0 y⟩)) 512#32) (sel x2 (ix1 ⟨(y 0).val, idx2_lt0 y⟩)) := by
  unfold startIdx
  rw [broadcastInDim_apply _ Facts₀.bcast_S128_S128x1_0 (wrapped x2) y (ix1 ⟨(y 0).val, idx2_lt0 y⟩) (fun a => match a with
    | ⟨0, _⟩ => by show (y 0).val = if (128 : Nat) = 1 then 0 else (y 0).val; rw [if_neg (by decide)])]
  rfl

/-- With every index word in `[-512, 512)`, every column passes the in-range test. -/
theorem inRange_eq_one (hr : ∀ k : S128.Idx, -512 ≤ (sel x2 k).toInt ∧ (sel x2 k).toInt < 512) (i : S128.Idx) :
    inRange x2 i = 1#1 := by
  unfold inRange
  refine Host.reduce_andi_of_all _ _ _ _ _ rfl (fun y => ?_)
  show IntOp.andi (IntOp.cmpi .sge (startIdx x2 y) 0#32) (IntOp.cmpi .sle (startIdx x2 y) 511#32) = 1#1
  rw [startIdx_apply]
  obtain ⟨h1, h2⟩ := hr (ix1 ⟨(y 0).val, idx2_lt0 y⟩)
  obtain ⟨ha, hb⟩ := wrap_toInt _ h1 h2
  have z : (0#32 : BitVec 32).toInt = 0 := by decide
  have e511 : (511#32 : BitVec 32).toInt = 511 := by decide
  exact IntOp.andi_eq_one.2 ⟨IntOp.cmpi_sge.2 (by rw [z]; exact ha), IntOp.cmpi_sle.2 (by rw [e511]; exact hb)⟩

/-- THE SELECTED WEIGHTS AT `(j, k)`: `W[j, c k]`, every index word being in range. -/
theorem wsel_apply (hr : ∀ k : S128.Idx, -512 ≤ (sel x2 k).toInt ∧ (sel x2 k).toInt < 512) (j : Fin 4096) (k : Fin 128) :
    wsel x2 x3 (ix2 j k) = x3 (ix2 j (col (startIdx x2) k)) := by
  unfold wsel
  rw [select_apply, broadcastInDim_apply _ Facts₀.bcast_S128_S4096x128_1 (inRange x2) (ix2 j k) (ix1 k) (fun a => match a with
    | ⟨0, _⟩ => by show k.val = if (128 : Nat) = 1 then 0 else k.val; rw [if_neg (by decide)]),
    inRange_eq_one x2 hr, select_one]
  exact gather_col_apply (N := 4096) Facts₀.gather_S4096x512_S128x1_S4096x128_0_1_n_n_1_1_40961_wf x3 (startIdx x2) j k

end Stages

/-! ## The precondition decoded: every index word in `[-512, 512)` -/

instance : Subsingleton Cert.Pre_finite_inputs.S_.Idx := ⟨fun a b => funext fun d => d.elim0⟩

theorem sel_in_range [Cert.Pre_finite_inputs.Facts] (a0 a1 : FVec Ideal S8192x4096 .f32) (a2 : IVec S8192x128 32)
    (a3 : FVec Ideal S4096x512 .f32) (h : Cert.Pre_finite_inputs.fn (F := Ideal) a0 a1 a2 a3 = fun _ => 1#1) (k : S128.Idx) :
    -512 ≤ (sel a2 k).toInt ∧ (sel a2 k).toInt < 512 := by
  have e := congrFun h ix0
  dsimp only [Cert.Pre_finite_inputs.fn, Cert.Pre_finite_inputs.fn_part1] at e
  obtain ⟨-, h23⟩ := IntOp.andi_eq_one.1 e
  have hk := Host.reduce_andi_all _ _ _ _ _ h23 k
  obtain ⟨hge, hlt⟩ := IntOp.andi_eq_one.1 hk
  have h1 := IntOp.cmpi_sge.1 hge
  have h2 := IntOp.cmpi_slt.1 hlt
  have em : (4294966784#32 : BitVec 32).toInt = -512 := by decide
  have ep : (512#32 : BitVec 32).toInt = 512 := by decide
  exact ⟨em ▸ h1, ep ▸ h2⟩

/-! ## The two windows' arrays as the region finds them -/

variable (m : (ℓ : Loc nD τ sig) → Buf (Elt Ideal) ℓ)

set_option maxHeartbeats 2000000 in
/-- Window 2's array is the selected weights (narrowed to bf16: the identity here). -/
theorem V_wsel (c : Dev nD) :
    (V m c main_call0_v3 : S4096x128.Idx → EReal)
      = truncf .bf16 (wsel (m ((c : Thread nD τ).loc main_arg2)) (m ((c : Thread nD τ).loc main_arg3))) Facts₀.bitsLt_bf16_f32 := by
  dsimp only [V, hostOps0]
  after_results_simp
  rfl

set_option maxHeartbeats 2000000 in
/-- Window 3's array is their transpose. -/
theorem V_wselT (c : Dev nD) :
    (V m c main_call0_v4 : S128x4096.Idx → EReal)
      = transpose S128x4096 [1, 0] (truncf .bf16 (wsel (m ((c : Thread nD τ).loc main_arg2)) (m ((c : Thread nD τ).loc main_arg3))) Facts₀.bitsLt_bf16_f32)
          Facts₀.transposes_S4096x128_S128x4096_1_0 := by
  dsimp only [V, hostOps0]
  after_results_simp
  rfl

variable [Cert.Pre_finite_inputs.Facts]

/-- Window 2's array at `(j, k)`, under the precondition: `W[j, c k]`. -/
theorem V_wsel_apply (hpre : Cert.Pre_KernelIdeal m) (c : Dev nD) (j : Fin 4096) (k : Fin 128) :
    (V m c main_call0_v3 : S4096x128.Idx → EReal) (ix2 j k)
      = m ((c : Thread nD τ).loc main_arg3) (ix2 j (col (startIdx (m ((c : Thread nD τ).loc main_arg2))) k)) := by
  rw [V_wsel]
  exact wsel_apply _ _ (sel_in_range _ _ _ _ (hpre c)) j k

/-- Window 3's array at `(k, d)`, under the precondition: `W[d, c k]`. -/
theorem V_wselT_apply (hpre : Cert.Pre_KernelIdeal m) (c : Dev nD) (k : Fin 128) (d : Fin 4096) :
    (V m c main_call0_v4 : S128x4096.Idx → EReal) (ix2 k d)
      = m ((c : Thread nD τ).loc main_arg3) (ix2 d (col (startIdx (m ((c : Thread nD τ).loc main_arg2))) k)) := by
  rw [V_wselT, transpose_apply [1, 0] _ Facts₀.transposes_S4096x128_S128x4096_1_0 (ix2 k d) (ix2 d k) (fun b => match b with
    | ⟨0, _⟩ => rfl
    | ⟨1, _⟩ => rfl)]
  exact wsel_apply _ _ (sel_in_range _ _ _ _ (hpre c)) d k

end Cert.KernelIdeal.Weights

end
-- ==== Proof.Spec.lean ====
/-
  THE SPECIFICATION: a low-rank update of `base` through selected columns of `W`.

  With `c k` the column of `W : [4096, 512]` that the `k`-th of 128 start indices names, the result at `(b, d)` is

      base[b, d] + ∑ k, (∑ j, (src[b, j] − base[b, j]) · W[j, c k]) · W[d, c k]

  on the extended reals: the difference of the two rows is projected on the 128 selected columns, and the 128
  coefficients are carried back through the same columns. Both programs compute exactly this double sum, in this
  order of multiplication and summation — one selects the columns of `W` before the first product, the other
  selects the columns of the product —, so no algebraic law is needed between them, only the reading of a column
  gather at an index.
-/
import proofs.«419594_j4509715660999_3_alg».proof.Proof.ColumnGather
import Idealize.ShloMosaic.PureOps.Ideal

noncomputable section

open scoped BigOperators

namespace LowRank

open Idealize.ShloMosaic Idealize.ShloMosaic.ValueIdx ColumnGather

/-- The coefficient of row `b` on the `k`-th selected column: `∑ j, (src[b, j] − base[b, j]) · W[j, c k]`. -/
def coeff (base src : (⟨2, ![8192, 4096]⟩ : Shape).Idx → EReal) (W : (⟨2, ![4096, 512]⟩ : Shape).Idx → EReal)
    (idx : IVec ⟨2, ![128, 1]⟩ 32) (b : Fin 8192) (k : Fin 128) : EReal :=
  ∑ j : Fin 4096, (src (ix2 b j) - base (ix2 b j)) * W (ix2 j (col idx k))

/-- The updated entry `(b, d)`: `base[b, d] + ∑ k, coeff b k · W[d, c k]`. -/
def entry (base src : (⟨2, ![8192, 4096]⟩ : Shape).Idx → EReal) (W : (⟨2, ![4096, 512]⟩ : Shape).Idx → EReal)
    (idx : IVec ⟨2, ![128, 1]⟩ 32) (b : Fin 8192) (d : Fin 4096) : EReal :=
  base (ix2 b d) + ∑ k : Fin 128, coeff base src W idx b k * W (ix2 d (col idx k))

/-- The whole updated array, index by index. -/
def G (base src : (⟨2, ![8192, 4096]⟩ : Shape).Idx → EReal) (W : (⟨2, ![4096, 512]⟩ : Shape).Idx → EReal)
    (idx : IVec ⟨2, ![128, 1]⟩ 32) : (⟨2, ![8192, 4096]⟩ : Shape).Idx → EReal :=
  fun i => entry base src W idx (i 0) (i 1)

theorem G_apply (base src : (⟨2, ![8192, 4096]⟩ : Shape).Idx → EReal) (W : (⟨2, ![4096, 512]⟩ : Shape).Idx → EReal)
    (idx : IVec ⟨2, ![128, 1]⟩ 32) (b : Fin 8192) (d : Fin 4096) :
    G base src W idx (ix2 b d) = entry base src W idx b d := rfl

end LowRank

end
-- ==== Proof.KernelValue.lean ====
/-
  THE KERNEL'S RESULT ARRAY IS THE SPECIFICATION.

  One grid point `t` of 32 handles rows `256 t … 256 t + 255`: it reads that block of `base` and of `src`, the whole
  selected weights `[4096, 128]` and their transpose `[128, 4096]`, and stores one `[256, 4096]` block

      base + ((src − base) · Wsel) · Wselᵀ,

  two matrix products into zero accumulators, the narrowings to bf16 in between being the identity on extended reals.
  Read at `(r, d)` the first product is a sum over the 4096 columns of the block's row `r`, the second a sum over the
  128 selected columns. With the weight windows read under the precondition (`Wsel[j, k] = W[j, c k]`,
  `Wselᵀ[k, d] = W[d, c k]`) and the row blocks read where the output block lies, point `t` writes back block `t` of
  `LowRank.G`; the 32 row blocks cover the array, so the array ends holding `LowRank.G`.
-/
import proofs.«419594_j4509715660999_3_alg».proof.Proof.Gen.KernelIdeal.Value
import proofs.«419594_j4509715660999_3_alg».proof.Proof.Weights
import proofs.«419594_j4509715660999_3_alg».proof.Proof.Spec
import Idealize.ShloMosaic.PureOps.Ideal.Laws
import Idealize.ShloMosaic.Lib.Pipeline.Value

noncomputable section

open scoped BigOperators

namespace Cert.KernelIdeal.KernelValue

open Cert.KernelIdeal Cert.KernelIdeal.Gen Cert.KernelIdeal.Weights
open Idealize.ShloMosaic Idealize.ShloMosaic.TcCoe Idealize.SL.Sem Idealize.ShloMosaic.ValueIdx ColumnGather
open Idealize.ShloMosaic.Pipeline (Dat)

/-! ## The two products, read at an index -/

theorem lhs1_0 (i : S256x128.Idx) (q : dot_S256x4096_S4096x128_S256x128_1_0_0_1_n_n.contr.Idx) : (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
  rfl
theorem lhs1_1 (i : S256x128.Idx) (q : dot_S256x4096_S4096x128_S256x128_1_0_0_1_n_n.contr.Idx) : (dot_S256x4096_S4096x128_S256x128_1_0_0_1_n_n.lhsIdx i q 1).val = (q ⟨0, by decide⟩).val :=
  dot_S256x4096_S4096x128_S256x128_1_0_0_1_n_n.lhsIdx_val_of_single rfl i q
theorem rhs1_0 (i : S256x128.Idx) (q : dot_S256x4096_S4096x128_S256x128_1_0_0_1_n_n.contr.Idx) : (dot_S256x4096_S4096x128_S256x128_1_0_0_1_n_n.rhsIdx i q 0).val = (q ⟨0, by decide⟩).val :=
  dot_S256x4096_S4096x128_S256x128_1_0_0_1_n_n.rhsIdx_val_of_single rfl i q
theorem rhs1_1 (i : S256x128.Idx) (q : dot_S256x4096_S4096x128_S256x128_1_0_0_1_n_n.contr.Idx) : (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
  rfl

/-- The first product at `(r, k)`: row `r` of the left operand against column `k` of the right, over 4096 terms. -/
theorem matmul1_apply (a : S256x4096.Idx → EReal) (b : S4096x128.Idx → EReal) (r : Fin 256) (k : Fin 128) :
    FloatOps.matmul (F := Ideal) (φ₁ := .bf16) (φ₂ := .bf16) dot_S256x4096_S4096x128_S256x128_1_0_0_1_n_n none a b (constant (F := Ideal) S256x128 .f32 0x00000000#32) (ix2 r k)
      = ∑ j : Fin 4096, a (ix2 r j) * b (ix2 j k) := by
  rw [Ideal.matmul_constant_zero_apply, ← Equiv.sum_comp (contrEquiv1 dot_S256x4096_S4096x128_S256x128_1_0_0_1_n_n 4096 rfl rfl).symm]
  refine Finset.sum_congr rfl fun j _ => ?_
  have hj := contrEquiv1_symm_val dot_S256x4096_S4096x128_S256x128_1_0_0_1_n_n 4096 rfl rfl j
  have el : dot_S256x4096_S4096x128_S256x128_1_0_0_1_n_n.lhsIdx (ix2 r k) ((contrEquiv1 dot_S256x4096_S4096x128_S256x128_1_0_0_1_n_n 4096 rfl rfl).symm j) = ix2 r j := funext fun x => Fin.ext (by
    match x with
    | ⟨0, _⟩ => exact lhs1_0 _ _
    | ⟨1, _⟩ => exact (lhs1_1 _ _).trans hj)
  have er : dot_S256x4096_S4096x128_S256x128_1_0_0_1_n_n.rhsIdx (ix2 r k) ((contrEquiv1 dot_S256x4096_S4096x128_S256x128_1_0_0_1_n_n 4096 rfl rfl).symm j) = ix2 j k := funext fun x => Fin.ext (by
    match x with
    | ⟨0, _⟩ => exact (rhs1_0 _ _).trans hj
    | ⟨1, _⟩ => exact rhs1_1 _ _)
  rw [el, er]

theorem lhs2_0 (i : S256x4096.Idx) (q : dot_S256x128_S128x4096_S256x4096_1_0_0_1_n_n.contr.Idx) : (dot_S256x128_S128x4096_S256x4096_1_0_0_1_n_n.lhsIdx i q 0).val = (i 0).val := by
  unfold DotDims.lhsIdx
  rw [dif_neg (show ¬(0 : Fin S256x128.rank) ∈ dot_S256x128_S128x4096_S256x4096_1_0_0_1_n_n.lhsBatch by decide), dif_pos (show (0 : Fin S256x128.rank) ∈ dot_S256x128_S128x4096_S256x4096_1_0_0_1_n_n.lhsNonContracting by decide)]
  rfl
theorem lhs2_1 (i : S256x4096.Idx) (q : dot_S256x128_S128x4096_S256x4096_1_0_0_1_n_n.contr.Idx) : (dot_S256x128_S128x4096_S256x4096_1_0_0_1_n_n.lhsIdx i q 1).val = (q ⟨0, by decide⟩).val :=
  dot_S256x128_S128x4096_S256x4096_1_0_0_1_n_n.lhsIdx_val_of_single rfl i q
theorem rhs2_0 (i : S256x4096.Idx) (q : dot_S256x128_S128x4096_S256x4096_1_0_0_1_n_n.contr.Idx) : (dot_S256x128_S128x4096_S256x4096_1_0_0_1_n_n.rhsIdx i q 0).val = (q ⟨0, by decide⟩).val :=
  dot_S256x128_S128x4096_S256x4096_1_0_0_1_n_n.rhsIdx_val_of_single rfl i q
theorem rhs2_1 (i : S256x4096.Idx) (q : dot_S256x128_S128x4096_S256x4096_1_0_0_1_n_n.contr.Idx) : (dot_S256x128_S128x4096_S256x4096_1_0_0_1_n_n.rhsIdx i q 1).val = (i 1).val := by
  unfold DotDims.rhsIdx
  rw [dif_neg (show ¬(1 : Fin S128x4096.rank) ∈ dot_S256x128_S128x4096_S256x4096_1_0_0_1_n_n.rhsBatch by decide), dif_pos (show (1 : Fin S128x4096.rank) ∈ dot_S256x128_S128x4096_S256x4096_1_0_0_1_n_n.rhsNonContracting by decide)]
  rfl

/-- The second product at `(r, d)`: row `r` of the coefficients against column `d` of the transposed weights, over
    128 terms. -/
theorem matmul2_apply (a : S256x128.Idx → EReal) (b : S128x4096.Idx → EReal) (r : Fin 256) (d : Fin 4096) :
    FloatOps.matmul (F := Ideal) (φ₁ := .bf16) (φ₂ := .bf16) dot_S256x128_S128x4096_S256x4096_1_0_0_1_n_n none a b (constant (F := Ideal) S256x4096 .f32 0x00000000#32) (ix2 r d)
      = ∑ k : Fin 128, a (ix2 r k) * b (ix2 k d) := by
  rw [Ideal.matmul_constant_zero_apply, ← Equiv.sum_comp (contrEquiv1 dot_S256x128_S128x4096_S256x4096_1_0_0_1_n_n 128 rfl rfl).symm]
  refine Finset.sum_congr rfl fun k _ => ?_
  have hk := contrEquiv1_symm_val dot_S256x128_S128x4096_S256x4096_1_0_0_1_n_n 128 rfl rfl k
  have el : dot_S256x128_S128x4096_S256x4096_1_0_0_1_n_n.lhsIdx (ix2 r d) ((contrEquiv1 dot_S256x128_S128x4096_S256x4096_1_0_0_1_n_n 128 rfl rfl).symm k) = ix2 r k := funext fun x => Fin.ext (by
    match x with
    | ⟨0, _⟩ => exact lhs2_0 _ _
    | ⟨1, _⟩ => exact (lhs2_1 _ _).trans hk)
  have er : dot_S256x128_S128x4096_S256x4096_1_0_0_1_n_n.rhsIdx (ix2 r d) ((contrEquiv1 dot_S256x128_S128x4096_S256x4096_1_0_0_1_n_n 128 rfl rfl).symm k) = ix2 k d := funext fun x => Fin.ext (by
    match x with
    | ⟨0, _⟩ => exact (rhs2_0 _ _).trans hk
    | ⟨1, _⟩ => exact rhs2_1 _ _)
  rw [el, er]

/-! ## The body's stored value at an index -/

/-- The stored block at `(r, d)`, from the loaded blocks: `xb[r, d] + ∑ k, (∑ j, (xs[r, j] − xb[r, j]) · w[j, k]) · wT[k, d]`. -/
theorem pay_apply (xs xb : S256x4096.Idx → EReal) (w : S4096x128.Idx → EReal) (wT : S128x4096.Idx → EReal)
    (r : Fin 256) (d : Fin 4096) :
    k0_pay1 (F := Ideal) xs xb w wT xb (ix2 r d)
      = xb (ix2 r d) + ∑ k : Fin 128, (∑ j : Fin 4096, (xs (ix2 r j) - xb (ix2 r j)) * w (ix2 j k)) * wT (ix2 k d) := by
  unfold k0_pay1
  rw [addf_apply, shapeCast_self, shapeCast_self]
  congr 1
  refine (matmul2_apply _ _ r d).trans ?_
  refine Finset.sum_congr rfl fun k _ => ?_
  congr 1
  exact matmul1_apply _ _ r k

/-! ## Where the blocks lie -/

theorem hz : (![0, 0] : Fin 2 → Nat) = fun _ => 0 := funext fun a => by fin_cases a <;> rfl

/-- The printed index maps, decided over the 32 grid points: the two row-block inputs move with the output, whose block
    index is `(t, 0)`; the two weight windows stay at block `(0, 0)`. -/
theorem idx_facts : ∀ t : Fin cfg0.N, win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Every row block is some point's: block `q` is point `q`'s. -/
theorem idx_onto : ∀ q : Fin 32, ∃ t : Fin cfg0.N, win0_4.index t (0 : Fin 2) = q.val :=
  (by decide +kernel : ∀ q : Fin 32, ∃ t : Fin grid0.N, win0_4.index t (0 : Fin 2) = q.val)

variable (m : (ℓ : Loc nD τ sig) → Buf (Elt Ideal) ℓ) (ρ : Dev nD → PrngReg)

/-- Row `r` of point `t`'s block is row `256 t + r` of the array. -/
def row (t : Fin cfg0.N) (r : Fin 256) : Fin 8192 := ⟨t.val * 256 + r.val, by
  have ht : t.val < 32 := lt_of_lt_of_eq t.isLt (show cfg0.N = 32 from N_0)
  omega⟩

/-- The `base` block at a point. -/
theorem baseBlk_apply (c : Dev nD) (t : Fin cfg0.N) (r : Fin 256) (j : Fin 4096) :
    (iblk m c 0 t : S256x4096.Idx → EReal) (ix2 r j) = m ((c : Thread nD τ).loc main_arg0) (ix2 (row t r) j) := by
  obtain ⟨-, -, e0, e1, -⟩ := idx_facts t
  rw [← V_main_arg0 m c]
  show V m c main_arg0 (((cfg0.win 0).blk t).view.emb (ix2 r j)) = V m c main_arg0 _
  refine congrArg _ (funext fun a => Fin.ext ?_)
  match a with
  | ⟨0, _⟩ => show win0_0.index t (0 : Fin 2) * 256 + 1 * r.val = t.val * 256 + r.val; omega
  | ⟨1, _⟩ => show win0_0.index t (1 : Fin 2) * 4096 + 1 * j.val = j.val; omega

/-- The `src` block at a point. -/
theorem srcBlk_apply (c : Dev nD) (t : Fin cfg0.N) (r : Fin 256) (j : Fin 4096) :
    (iblk m c 1 t : S256x4096.Idx → EReal) (ix2 r j) = m ((c : Thread nD τ).loc main_arg1) (ix2 (row t r) j) := by
  obtain ⟨-, -, -, -, e0, e1, -⟩ := idx_facts t
  rw [← V_main_arg1 m c]
  show V m c main_arg1 (((cfg0.win 1).blk t).view.emb (ix2 r j)) = V m c main_arg1 _
  refine congrArg _ (funext fun a => Fin.ext ?_)
  match a with
  | ⟨0, _⟩ => show win0_1.index t (0 : Fin 2) * 256 + 1 * r.val = t.val * 256 + r.val; omega
  | ⟨1, _⟩ => show win0_1.index t (1 : Fin 2) * 4096 + 1 * j.val = j.val; omega

/-- The selected weights' window is its whole array at every point. -/
theorem wselBlk_apply (c : Dev nD) (t : Fin cfg0.N) (j : Fin 4096) (k : Fin 128) :
    (iblk m c 2 t : S4096x128.Idx → EReal) (ix2 j k) = (V m c main_call0_v3 : S4096x128.Idx → EReal) (ix2 j k) := by
  obtain ⟨-, -, -, -, -, -, e0, e1, -⟩ := idx_facts t
  show V m c main_call0_v3 (((cfg0.win 2).blk t).view.emb (ix2 j k)) = V m c main_call0_v3 _
  refine congrArg _ (funext fun a => Fin.ext ?_)
  match a with
  | ⟨0, _⟩ => show win0_2.index t (0 : Fin 2) * 4096 + 1 * j.val = j.val; omega
  | ⟨1, _⟩ => show win0_2.index t (1 : Fin 2) * 128 + 1 * k.val = k.val; omega

/-- So is the transposed weights' window. -/
theorem wselTBlk_apply (c : Dev nD) (t : Fin cfg0.N) (k : Fin 128) (d : Fin 4096) :
    (iblk m c 3 t : S128x4096.Idx → EReal) (ix2 k d) = (V m c main_call0_v4 : S128x4096.Idx → EReal) (ix2 k d) := by
  obtain ⟨-, -, -, -, -, -, -, -, e0, e1⟩ := idx_facts t
  show V m c main_call0_v4 (((cfg0.win 3).blk t).view.emb (ix2 k d)) = V m c main_call0_v4 _
  refine congrArg _ (funext fun a => Fin.ext ?_)
  match a with
  | ⟨0, _⟩ => show win0_3.index t (0 : Fin 2) * 128 + 1 * k.val = k.val; omega
  | ⟨1, _⟩ => show win0_3.index t (1 : Fin 2) * 4096 + 1 * d.val = d.val; omega

variable [Cert.Pre_finite_inputs.Facts]

/-- The specification at the kernel's own start indices. -/
def spec (c : Dev nD) : S8192x4096.Idx → EReal :=
  LowRank.G (m ((c : Thread nD τ).loc main_arg0)) (m ((c : Thread nD τ).loc main_arg1)) (m ((c : Thread nD τ).loc main_arg3))
    (startIdx (m ((c : Thread nD τ).loc main_arg2)))

theorem spec_apply (c : Dev nD) (b : Fin 8192) (d : Fin 4096) :
    spec m c (ix2 b d) = LowRank.entry (m ((c : Thread nD τ).loc main_arg0)) (m ((c : Thread nD τ).loc main_arg1))
      (m ((c : Thread nD τ).loc main_arg3)) (startIdx (m ((c : Thread nD τ).loc main_arg2))) b d := rfl

/-- The `base` argument and the weight argument as arrays of extended reals over their literal shapes. -/
abbrev baseArr (c : Dev nD) : S8192x4096.Idx → EReal := m ((c : Thread nD τ).loc main_arg0)
abbrev wArr (c : Dev nD) : S4096x512.Idx → EReal := m ((c : Thread nD τ).loc main_arg3)

/-- WHAT POINT `t` STORES at `(r, d)` is the specification's entry `(256 t + r, d)`. -/
theorem point_eq (hpre : Cert.Pre_KernelIdeal m) (c : Dev nD) (t : Fin cfg0.N) (r : Fin 256) (d : Fin 4096) :
    k0_pay1 (F := Ideal) (iblk m c 1 t) (iblk m c 0 t) (iblk m c 2 t) (iblk m c 3 t) (iblk m c 0 t) (ix2 r d)
      = spec m c (ix2 (row t r) d) := by
  refine (pay_apply (iblk m c 1 t) (iblk m c 0 t) (iblk m c 2 t) (iblk m c 3 t) r d).trans ?_
  rw [spec_apply]
  unfold LowRank.entry LowRank.coeff
  rw [baseBlk_apply]
  refine congrArg (fun z : EReal => baseArr m c (ix2 (row t r) d) + z) (Finset.sum_congr rfl fun k _ => ?_)
  rw [wselTBlk_apply, V_wselT_apply m hpre]
  refine congrArg (fun z : EReal => z * wArr m c (ix2 d (col (startIdx (m ((c : Thread nD τ).loc main_arg2))) k)))
    (Finset.sum_congr rfl fun j _ => ?_)
  rw [srcBlk_apply, baseBlk_apply, wselBlk_apply, V_wsel_apply m hpre]

/-- The same at an index `y` of the block: the specification where the block's index `y` lies in the array. -/
theorem point_emb (hpre : Cert.Pre_KernelIdeal m) (c : Dev nD) (t : Fin cfg0.N) (y : S256x4096.Idx) :
    k0_pay1 (F := Ideal) (iblk m c 1 t) (iblk m c 0 t) (iblk m c 2 t) (iblk m c 3 t) (iblk m c 0 t) y
      = spec m c (((cfg0.win 4).blk t).view.emb y) := by
  obtain ⟨e0, e1, -⟩ := idx_facts t
  obtain ⟨r, d, rfl⟩ : ∃ (r : Fin 256) (d : Fin 4096), y = ix2 r d := ⟨y 0, y 1, eq_ix2 y⟩
  rw [point_eq m hpre c t]
  refine congrArg _ (funext fun a => Fin.ext ?_)
  match a with
  | ⟨0, _⟩ => show t.val * 256 + r.val = win0_4.index t (0 : Fin 2) * 256 + 1 * r.val; omega
  | ⟨1, _⟩ => show d.val = win0_4.index t (1 : Fin 2) * 4096 + 1 * d.val; omega

/-- WHAT POINT `t` WRITES BACK is block `t` of the specification. -/
theorem flushed_eq (hpre : Cert.Pre_KernelIdeal m) (c : Dev nD) (t : Fin cfg0.N) :
    (dats m 0 c).flushed 4 t = ((cfg0.win 4).blk t).view.read (Elt Ideal) (spec m c) := by
  rw [Value.flushed4]
  unfold out0_4
  rw [View.canon_unit_zero hz]
  simp only [View.ld_unit_zero (S := S256x4096) hz, View.ld_unit_zero (S := S4096x128) hz, View.ld_unit_zero (S := S128x4096) hz]
  funext y
  exact point_emb m hpre c t y

/-- An index of the array is in point `t`'s block iff each coordinate is in the block's range on its axis. -/
theorem mem_blk (t : Fin cfg0.N) (i : S8192x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v0).slice (win0_4.rect t)).set ↔ _
  rw [View.set_slice_whole, Rect.mem_set_unit]
  exact Iff.rfl

/-- The 32 row blocks cover the array: row `b` is in block `b / 256`. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := idx_onto ⟨(i 0).val / 256, by omega⟩
  have q0 : win0_4.index t (0 : Fin 2) = (i 0).val / 256 := ht
  obtain ⟨-, q1, -⟩ := idx_facts t
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- THE ARRAY after the run is the specification. -/
theorem final (hpre : Cert.Pre_KernelIdeal m) (c : Dev nD) : (dats m 0 c).arrAt 4 cfg0.N = spec m c :=
  (dats m 0 c).arrAt_eq_of_cover 4 (spec m c) (fun t _ => flushed_eq m hpre c t) cover

/-- The kernel's run, read: the result array at the specification, the arguments unchanged. -/
theorem run (hpre : Cert.Pre_KernelIdeal m) :
    θ_run defs (onTc (τ := τ) (main (F := Ideal))) ⟨m, fun _ => 0, ρ⟩ fun r => ∀ c : Dev nD,
      r.2.mem ((c : Thread nD τ).loc main_v0) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m hpre c), (h c).2⟩) (Value.run_blocks m ρ)

end Cert.KernelIdeal.KernelValue

end
-- ==== Proof.RefValue.lean ====
/-
  THE REFERENCE COMPUTES THE SPECIFICATION.

  Read one operation at a time, the reference is `base + (gather ((src − base) · W)) · (gather W)ᵀ`: the first gather
  takes columns of the `[8192, 512]` product, the second the same columns of `W` itself, both at the start indices the
  program computes from row 0 of the integer input (negative words moved up by 512, the numpy convention). A column
  gather read at `(r, k)` is its operand at row `r` and column `col idx k`; the two products are plain sums over
  their one contracted axis; the transpose swaps the coordinates. Put together, entry `(b, d)` of the result is
  `LowRank.entry` at the program's own start indices.
-/
import proofs.«419594_j4509715660999_3_alg».proof.Proof.Gen.ReferenceIdeal.Read
import proofs.«419594_j4509715660999_3_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx ColumnGather

variable (x0 x1 : (⟨S8192x4096, .f32⟩ : BufTy).Contents (Elt Ideal))
  (x2 : (⟨S8192x128, .i32⟩ : BufTy).Contents (Elt Ideal)) (x3 : (⟨S4096x512, .f32⟩ : BufTy).Contents (Elt Ideal))

/-- The start indices of the second gather are those of the first: the program computes the same expression twice. -/
theorem startIdx_eq : val_main_v16 (F := Ideal) x2 = val_main_v9 (F := Ideal) x2 := rfl

/-! ### The operand indices of the two products and of the transpose, by coordinates -/

theorem lidx3 (b : Fin 8192) (c : Fin 512) (j : Fin 4096) : lidx_main_v3 (ix2 b c) j = ix2 b j :=
  funext fun a => Fin.ext (by match a with | ⟨0, _⟩ => rfl | ⟨1, _⟩ => rfl)
theorem ridx3 (b : Fin 8192) (c : Fin 512) (j : Fin 4096) : ridx_main_v3 (ix2 b c) j = ix2 j c :=
  funext fun a => Fin.ext (by match a with | ⟨0, _⟩ => rfl | ⟨1, _⟩ => rfl)
theorem lidx19 (b : Fin 8192) (d : Fin 4096) (k : Fin 128) : lidx_main_v19 (ix2 b d) k = ix2 b k :=
  funext fun a => Fin.ext (by match a with | ⟨0, _⟩ => rfl | ⟨1, _⟩ => rfl)
theorem ridx19 (b : Fin 8192) (d : Fin 4096) (k : Fin 128) : ridx_main_v19 (ix2 b d) k = ix2 k d :=
  funext fun a => Fin.ext (by match a with | ⟨0, _⟩ => rfl | ⟨1, _⟩ => rfl)
theorem idx18 (k : Fin 128) (d : Fin 4096) : idx_main_v18 (ix2 k d) = ix2 d k :=
  funext fun a => Fin.ext (by match a with | ⟨0, _⟩ => rfl | ⟨1, _⟩ => rfl)

/-- The gathered product at `(b, k)`: row `b` of the difference against the selected column of `W`. -/
theorem v10_apply (b : Fin 8192) (k : Fin 128) :
    val_main_v10 (F := Ideal) x0 x1 x2 x3 (ix2 b k)
      = LowRank.coeff x0 x1 x3 (val_main_v9 (F := Ideal) x2) b k := by
  unfold val_main_v10
  refine (gather_col_apply (N := 8192) Facts₀.gather_S8192x512_S128x1_S8192x128_0_1_n_n_1_1_81921_wf
    (val_main_v3 (F := Ideal) x0 x1 x3) (val_main_v9 (F := Ideal) x2) b k).trans ?_
  rw [val_main_v3_apply]
  unfold LowRank.coeff
  refine Finset.sum_congr rfl fun j _ => ?_
  rw [lidx3, ridx3, val_main_v2_apply]
  rfl

/-- The gathered columns of `W` at `(d, k)`. -/
theorem v17_apply (d : Fin 4096) (k : Fin 128) :
    val_main_v17 (F := Ideal) x2 x3 (ix2 d k) = x3 (ix2 d (col (val_main_v9 (F := Ideal) x2) k)) := by
  unfold val_main_v17
  rw [startIdx_eq]
  exact gather_col_apply (N := 4096) Facts₀.gather_S4096x512_S128x1_S4096x128_0_1_n_n_1_1_40961_wf
    x3 (val_main_v9 (F := Ideal) x2) d k

/-- THE REFERENCE'S RESULT is the specification at the program's start indices. -/
theorem result_eq :
    val_main_v20 (F := Ideal) x0 x1 x2 x3 = LowRank.G x0 x1 x3 (val_main_v9 (F := Ideal) x2) := by
  funext i
  obtain ⟨b, d, rfl⟩ : ∃ (b : Fin 8192) (d : Fin 4096), i = ix2 b d := ⟨i 0, i 1, eq_ix2 i⟩
  rw [val_main_v20_apply, val_main_v19_apply, LowRank.G_apply]
  unfold LowRank.entry
  show x0 (ix2 b d) + _ = x0 (ix2 b d) + _
  congr 1
  refine Finset.sum_congr rfl fun k _ => ?_
  rw [lidx19, ridx19, v10_apply, val_main_v18_apply, idx18, v17_apply]

end Cert.ReferenceIdeal.RefValue

end
-- ==== Proof.lean ====
/-
  A LOW-RANK UPDATE THROUGH SELECTED COLUMNS OF A ROTATION, fused in one kernel, against its jnp reference.

  Both programs take `base, src : [8192, 4096]`, an integer array whose row 0 holds 128 column indices into
  `W : [4096, 512]` (negative ones counted from the end, the numpy convention), and return

      base[b, d] + ∑ k, (∑ j, (src[b, j] − base[b, j]) · W[j, c k]) · W[d, c k]          (`LowRank.G`, Proof/Spec.lean)

  with `c k` the column the `k`-th index names. The reference forms `(src − base) · W` whole and then selects 128 of
  its 512 columns; the kernel selects the 128 columns of `W` first, on the host, and multiplies twice inside one
  pallas_call over 32 row blocks. Selecting columns commutes with a product on the right, so entry by entry the two
  are the same double sum, taken in the same order: no finiteness and no algebraic law beyond that is used.

  The one place the programs differ is an index outside the axis. The reference's gathers clamp such an index into
  `[0, 511]`; the kernel's host-side selection replaces the column by a fill value instead. The precondition therefore
  says, beside the finiteness of the float inputs, that the 128 index words lie in `[-512, 512)` — the range in which
  the reference's own indexing is in bounds; inside it the kernel's range test passes for every column
  (Proof/Weights.lean) and the fill never shows.

  The pieces: a column gather read at an index (Proof/ColumnGather.lean); the reference's result is `LowRank.G` at its
  start indices (Proof/RefValue.lean, over the generated read-back of its run); the kernel's result array is
  `LowRank.G` at its own (Proof/KernelValue.lean, over the generated frame run and blockwise value leg); the two
  programs compute their start indices by the same expression of row 0. The three frames are the generated ones, and
  the idealization rewrote nothing, so `preserves` is trivial.
-/
import proofs.«419594_j4509715660999_3_alg».proof.Defs
import proofs.«419594_j4509715660999_3_alg».proof.Proof.Gen.Kernel
import proofs.«419594_j4509715660999_3_alg».proof.Proof.Gen.Kernel.Skeleton
import proofs.«419594_j4509715660999_3_alg».proof.Proof.Gen.Kernel.Launch
import proofs.«419594_j4509715660999_3_alg».proof.Proof.Gen.Kernel.Points
import proofs.«419594_j4509715660999_3_alg».proof.Proof.Gen.Kernel.Frame
import proofs.«419594_j4509715660999_3_alg».proof.Proof.Gen.KernelIdeal
import proofs.«419594_j4509715660999_3_alg».proof.Proof.Gen.KernelIdeal.Skeleton
import proofs.«419594_j4509715660999_3_alg».proof.Proof.Gen.KernelIdeal.Launch
import proofs.«419594_j4509715660999_3_alg».proof.Proof.Gen.KernelIdeal.Points
import proofs.«419594_j4509715660999_3_alg».proof.Proof.Gen.KernelIdeal.Frame
import proofs.«419594_j4509715660999_3_alg».proof.Proof.Gen.ReferenceIdeal
import proofs.«419594_j4509715660999_3_alg».proof.Proof.Gen.Pre_finite_inputs
import proofs.«419594_j4509715660999_3_alg».proof.Proof.Gen.KernelIdeal.Value
import proofs.«419594_j4509715660999_3_alg».proof.Proof.Gen.ReferenceIdeal.Run
import proofs.«419594_j4509715660999_3_alg».proof.Proof.Gen.ReferenceIdeal.Read
import proofs.«419594_j4509715660999_3_alg».proof.Proof.KernelValue
import proofs.«419594_j4509715660999_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The start indices of the two programs are one expression of the integer input's row 0. -/
theorem startIdx_eq (x2 : IVec Cert.KernelIdeal.S8192x128 32) :
    Cert.ReferenceIdeal.Read.val_main_v9 (F := Ideal) x2 = Cert.KernelIdeal.Weights.startIdx x2 := rfl

/-- From memories that agree on the arguments both programs end at `LowRank.G` of the arguments: the kernel's result
    array by its 32 row blocks, the reference's by its operations read one at a time. -/
theorem algebraic : Cert.algebraic_KernelIdeal_ReferenceIdeal := by
  intro m ρ m' ρ' hpre hagree
  refine ⟨fun c => Cert.KernelIdeal.KernelValue.spec m c, Cert.KernelIdeal.KernelValue.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2.1, (hagree c).2.2.2, startIdx_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
